-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S16384 : Shape := ⟨1, ![16384]⟩
abbrev S1024x256 : Shape := ⟨2, ![1024, 256]⟩
abbrev S4096x256 : Shape := ⟨2, ![4096, 256]⟩
abbrev S1024 : Shape := ⟨1, ![1024]⟩
abbrev S1024x4096 : Shape := ⟨2, ![1024, 4096]⟩
abbrev S1024x1 : Shape := ⟨2, ![1024, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S16384, .f32⟩
  | .hbm, ⟨5, _⟩ => ⟨S_, .f32⟩
  | .hbm, ⟨6, _⟩ => ⟨S_, .f32⟩
  | .hbm, ⟨7, _⟩ => ⟨S16384, .f32⟩
  | .hbm, ⟨8, _⟩ => ⟨S16384, .f32⟩
  | .local _ .vmem, ⟨0, _⟩ => ⟨S1024x256, .f32⟩
  | .local _ .vmem, ⟨1, _⟩ => ⟨S1024x256, .f32⟩
  | .local _ .vmem, ⟨2, _⟩ => ⟨S4096x256, .bf16⟩
  | .local _ .vmem, ⟨3, _⟩ => ⟨S4096x256, .bf16⟩
  | .local _ .vmem, ⟨4, _⟩ => ⟨S1024, .f32⟩
  | .local _ .vmem, ⟨5, _⟩ => ⟨S1024, .f32⟩
  | .local _ .vmem, ⟨6, _⟩ => ⟨S1024x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x256_S1024x256_0_0 : ∀ a, (![0, 0] : Fin 2 → Nat) a + S1024x256.size a ≤ S1024x256.size a
  h_S1024x256 : 0 < S1024x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S1024x4096_S1024 : S1024x4096.Reduces [1] S1024
  shapeCasts_S1024_S1024x1 : S1024.ShapeCasts S1024x1
  shapeCasts_S1024x1_S1024 : S1024x1.ShapeCasts S1024
  inb_S1024_S1024_0 : ∀ a, (![0] : Fin 1 → Nat) a + S1024.size a ≤ S1024.size a
  h_S1024 : 0 < S1024.numel
  reducesTo_S4096_S_d0 : S4096.ReducesTo [0] S_
  h_S_ : 0 < S_.numel
  bcast_S_S16384 : S_.BroadcastsInDim S16384 (![] : Fin 0 → Fin S16384.rank)
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x4096.size a
  hwx0_0 : ∀ i : grid0.Coords, EltTy.bits .f32 = 32 ∨ (Rect.block (s := S16384x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S16384 : Shape := ⟨1, ![16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Pieces.lean ====
/-
  What the kernel body leaves behind at a grid point, case by case, as values of the blocks it read.

  The body has three control cases along the contraction axis of the grid:
  * the first tile of a row block: the accumulator is reset to zero and then receives the tile's product, so it
    ends at the step applied to the zero fill;
  * a middle tile: the accumulator ends at the step applied to what the previous point left;
  * the last tile: the same step, and the output block receives the row sums of the accumulator it has just updated.
  Each statement holds at every float instance; nothing here looks inside the three stored values.
-/
import proofs.«108593_j43800076485439_1_alg».proof.Proof.Gen.KernelIdeal.Frame
import Idealize.ShloMosaic.Lib.Pipeline.Value
import Idealize.ShloMosaic.Lib.Tactic

noncomputable section

namespace Cert.RowSumMatmul.Kernel

open Cert.KernelIdeal Cert.KernelIdeal.Gen
open Idealize.ShloMosaic Idealize.ShloMosaic.TcCoe Idealize.SL.Sem Idealize.ShloMosaic.Tactic

variable {F : FTy → Type} [FloatOps F]

theorem zeroOffsets2 : (![0, 0] : Fin 2 → Nat) = fun _ => 0 := funext fun a => by fin_cases a <;> rfl
theorem zeroOffsets1 : (![0] : Fin 1 → Nat) = fun _ => 0 := funext fun a => by fin_cases a; rfl

/-- First tile: the accumulator is zeroed, read back, and updated — it ends at the step over the zero fill. -/
theorem acc_first (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S1024 .f32) (harg4 : arg4.IsWhole) (arg5 : Memref sig .tc .vmem S1024x4096 .f32) (harg5 : arg5.IsWhole) (hc0 : cond0_0 i) (hc1 : ¬cond0_1 i)
    (x0 : Vec F S1024x256 .f32) (x1 : Vec F S4096x256 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x4096) zeroOffsets2, View.readCov_unit_zero (S := S1024x4096) _ zeroOffsets2]
  simp only [View.readAt_eq_ld, harg2.read_unread, harg3.read_unread, View.ld_unit_zero (S := S1024x256) zeroOffsets2,
    View.ld_unit_zero (S := S4096x256) zeroOffsets2]

/-- Middle tile: the accumulator ends at the step over what it held. -/
theorem acc_middle (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S1024 .f32) (harg4 : arg4.IsWhole) (arg5 : Memref sig .tc .vmem S1024x4096 .f32) (harg5 : arg5.IsWhole) (hc0 : ¬cond0_0 i) (hc1 : ¬cond0_1 i)
    (x0 : Vec F S1024x256 .f32) (x1 : Vec F S4096x256 .bf16) (xs0 : Vec F S1024x4096 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1024x4096) zeroOffsets2]
  simp only [View.readAt_eq_ld, harg2.read_unread, harg3.read_unread, harg5.read_unread, View.ld_unit_zero (S := S1024x256) zeroOffsets2,
    View.ld_unit_zero (S := S4096x256) zeroOffsets2, View.ld_unit_zero (S := S1024x4096) zeroOffsets2]

/-- Last tile: the accumulator ends at the step over what it held; -/
theorem acc_last (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S1024 .f32) (harg4 : arg4.IsWhole) (arg5 : Memref sig .tc .vmem S1024x4096 .f32) (harg5 : arg5.IsWhole) (hc0 : ¬cond0_0 i) (hc1 : cond0_1 i)
    (x0 : Vec F S1024x256 .f32) (x1 : Vec F S4096x256 .bf16) (xs0 : Vec F S1024x4096 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x4096) zeroOffsets2]
  simp only [View.readAt_eq_ld, harg2.read_unread, harg3.read_unread, harg5.read_unread, View.ld_unit_zero (S := S1024x256) zeroOffsets2,
    View.ld_unit_zero (S := S4096x256) zeroOffsets2, View.ld_unit_zero (S := S1024x4096) zeroOffsets2]

/-- and the output block receives the row sums of that updated accumulator. -/
theorem out_last (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S1024 .f32) (harg4 : arg4.IsWhole) (arg5 : Memref sig .tc .vmem S1024x4096 .f32) (harg5 : arg5.IsWhole) (hc0 : ¬cond0_0 i) (hc1 : cond0_1 i)
    (x0 : Vec F S1024x256 .f32) (x1 : Vec F S4096x256 .bf16) (xs0 : Vec F S1024x4096 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024) zeroOffsets1, View.readCov_unit_zero (S := S1024x4096) _ zeroOffsets2]
  simp only [View.readAt_eq_ld, harg2.read_unread, harg3.read_unread, harg5.read_unread, View.ld_unit_zero (S := S1024x256) zeroOffsets2,
    View.ld_unit_zero (S := S4096x256) zeroOffsets2, View.ld_unit_zero (S := S1024x4096) zeroOffsets2]

end Cert.RowSumMatmul.Kernel

end
-- ==== Proof.TileSums.lean ====
/-
  Sums over a contraction axis of length 4096 cut into 16 tiles of 256 columns.

  The kernel adds one tile's share of every dot product per grid step; the reference contracts the whole
  axis at once. Over any additive commutative monoid (the extended reals are one) the two agree: a running
  sum over tiles advances by one tile's share, the sum over all sixteen tiles is the sum over the axis, and
  a sum of sums-plus-a-term splits. Only commutativity and associativity of `+` are used, so nothing here
  asks the summands to be finite.
-/
import Mathlib.Algebra.BigOperators.Fin
import Mathlib.Logic.Equiv.Fin.Basic
import Mathlib.Algebra.BigOperators.Group.Finset.Basic

namespace Cert.RowSumMatmul

/-- Column `256·j + q` of the contraction axis: column `q` of tile `j`. -/
def col (j : ℕ) (hj : j < 16) (q : Fin 256) : Fin 4096 := ⟨256 * j + q.val, by have := q.isLt; omega⟩

/-- Row `1024·i + r` of the batch axis: row `r` of row block `i`. -/
def row (i : ℕ) (hi : i < 16) (r : Fin 1024) : Fin 16384 := ⟨1024 * i + r.val, by have := r.isLt; omega⟩

theorem col_val (j : ℕ) (hj : j < 16) (q : Fin 256) : (col j hj q).val = 256 * j + q.val := rfl
theorem row_val (i : ℕ) (hi : i < 16) (r : Fin 1024) : (row i hi r).val = 1024 * i + r.val := rfl

variable {M : Type*} [AddCommMonoid M]

/-- Tile `j`'s share of a sum over the contraction axis (zero past the last tile). -/
def tile (f : Fin 4096 → M) (j : ℕ) : M := if h : j < 16 then ∑ q : Fin 256, f (col j h q) else 0

/-- The running sum over the first `n` tiles. -/
def upto (f : Fin 4096 → M) (n : ℕ) : M := ∑ j ∈ Finset.range n, tile f j

theorem tile_of_lt (f : Fin 4096 → M) (j : ℕ) (h : j < 16) : tile f j = ∑ q : Fin 256, f (col j h q) := dif_pos h

/-- After the first tile the running sum is that tile's share. -/
theorem upto_one (f : Fin 4096 → M) : upto f 1 = ∑ q : Fin 256, f (col 0 (by decide) q) := by
  unfold upto
  rw [Finset.sum_range_one, tile_of_lt f 0 (by decide)]

/-- One more tile adds its share. -/
theorem upto_succ (f : Fin 4096 → M) (n : ℕ) (hn : n < 16) :
    upto f (n + 1) = upto f n + ∑ q : Fin 256, f (col n hn q) := by
  unfold upto
  rw [Finset.sum_range_succ, tile_of_lt f n hn]

/-- Sixteen tiles of 256 columns are the whole axis: the tiled double sum is the sum over all 4096 columns. -/
theorem upto_all (f : Fin 4096 → M) : upto f 16 = ∑ k : Fin 4096, f k := by
  unfold upto
  rw [Finset.sum_range (fun j => tile f j)]
  have h1 : ∀ j : Fin 16, tile f j.val = ∑ q : Fin 256, f (col j.val j.isLt q) := fun j => tile_of_lt f j.val j.isLt
  rw [Finset.sum_congr rfl (fun j _ => h1 j), ← Fintype.sum_prod_type']
  exact Fintype.sum_equiv (finProdFinEquiv : Fin 16 × Fin 256 ≃ Fin 4096) _ _
    (fun p => congrArg f (Fin.ext (by
      show 256 * p.1.val + p.2.val = p.2.val + 256 * p.1.val
      omega)))

/-- The identity joining the two programs at one batch row: the sum over outputs of the tiled dot products, plus
    (zero plus) the total of the bias, is the sum over outputs of (whole dot product plus bias). -/
theorem rowsum_bridge (a : Fin 4096 → Fin 4096 → M) (b : Fin 4096 → M) :
    (∑ o : Fin 4096, upto (a o) 16) + (0 + ∑ o : Fin 4096, b o) = ∑ o : Fin 4096, ((∑ k : Fin 4096, a o k) + b o) := by
  rw [zero_add, Finset.sum_add_distrib]
  exact congrArg (· + ∑ o : Fin 4096, b o) (Finset.sum_congr rfl fun o _ => upto_all (a o))

end Cert.RowSumMatmul
-- ==== Proof.Blocks.lean ====
/-
  The blocks the kernel body reads at a grid point, as entries of the argument arrays.

  Grid point `t = 16·i + k` is row block `i`, contraction tile `k`. Its x block holds rows `1024·i … 1024·i + 1023`
  and columns `256·k … 256·k + 255` of `x`; its weight block holds every row and the same 256 columns of the weight,
  which the host has narrowed to bf16 before the call (at the extended reals the narrowing changes nothing).
-/
import proofs.«108593_j43800076485439_1_alg».proof.Proof.Gen.KernelIdeal.Frame
import proofs.«108593_j43800076485439_1_alg».proof.Proof.TileSums
import Idealize.ShloMosaic.Lib.ValueIdx
import Idealize.ShloMosaic.Lib.Pipeline.Value
import Idealize.ShloMosaic.Lib.StableHlo.Run

noncomputable section

namespace Cert.RowSumMatmul.Kernel

open Cert.KernelIdeal Cert.KernelIdeal.Gen
open Idealize.ShloMosaic Idealize.ShloMosaic.TcCoe Idealize.SL.Sem
open Idealize.ShloMosaic.ValueIdx (ix1 ix2)
open Cert.RowSumMatmul (row col)

variable {F : FTy → Type} [FloatOps F]
variable (m : (ℓ : Loc nD τ sig) → Buf (Elt F) ℓ)

/-- The x block and the weight block staged at point `t`, and the two argument arrays, at their literal types. -/
abbrev xblk (c : Dev nD) (t : Fin cfg0.N) : Vec F S1024x256 .f32 := iblk m c 0 t
abbrev wblk (c : Dev nD) (t : Fin cfg0.N) : Vec F S4096x256 .bf16 := iblk m c 1 t
abbrev xarr (c : Dev nD) : Vec F S16384x4096 .f32 := m ((c : Thread nD τ).loc main_arg0)
abbrev warr (c : Dev nD) : Vec F S4096x4096 .f32 := m ((c : Thread nD τ).loc main_arg1)
/-- The weight narrowed to bf16, as the host hands it to the call. -/
abbrev wcast (c : Dev nD) : Vec F S4096x4096 .bf16 := truncf .bf16 (warr m c) bitsLt_bf16_f32

/-- Where the index maps put point `t`'s blocks: x at (t / 16, t % 16), the weight at (0, t % 16), the output at t / 16. -/
theorem xIndex : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem wIndex : ∀ t : Fin cfg0.N, win0_1.index t (0 : Fin 2) = 0 ∧ win0_1.index t (1 : Fin 2) = t.val % 16 :=
  (by decide +kernel : ∀ t : Fin grid0.N, win0_1.index t (0 : Fin 2) = 0 ∧ win0_1.index t (1 : Fin 2) = t.val % 16)
theorem oIndex : ∀ t : Fin cfg0.N, win0_2.index t (0 : Fin 1) = t.val / 16 :=
  (by decide +kernel : ∀ t : Fin grid0.N, win0_2.index t (0 : Fin 1) = t.val / 16)

/-- The region finds the weight narrowed to bf16: the one host operation before the call. -/
theorem weight_at_entry (c : Dev nD) : (V m c main_v0 : Vec F S4096x4096 .bf16) = wcast m c := by
  show StableHlo.after hostOps0 (fun b => m (c, b)) (Proc.devRef .tc main_v0) = _
  after_results

/-- The x block at (r, q) is `x` at (1024·i + r, 256·k + q). -/
theorem xblk_apply (c : Dev nD) (t : Fin cfg0.N) (i k : ℕ) (hi : i < 16) (hk : k < 16) (ht : t.val = 16 * i + k)
    (r : Fin 1024) (q : Fin 256) : xblk m c t (ix2 r q) = xarr m c (ix2 (row i hi r) (col k hk q)) := by
  show iblk m c 0 t (ix2 r q) = _
  unfold iblk
  rw [View.read_apply]
  show V m c main_arg0 _ = _
  rw [V_main_arg0]
  show xarr m c _ = xarr m c _
  congr 1
  funext a
  apply Fin.ext
  obtain ⟨h0, h1⟩ := xIndex t
  match a with
  | ⟨0, _⟩ => show win0_0.index t 0 * 1024 + 1 * r.val = 1024 * i + r.val; rw [h0]; omega
  | ⟨1, _⟩ => show win0_0.index t 1 * 256 + 1 * q.val = 256 * k + q.val; rw [h1]; omega

/-- The weight block at (o, q) is the narrowed weight at (o, 256·k + q). -/
theorem wblk_apply (c : Dev nD) (t : Fin cfg0.N) (i k : ℕ) (hi : i < 16) (hk : k < 16) (ht : t.val = 16 * i + k)
    (o : Fin 4096) (q : Fin 256) : wblk m c t (ix2 o q) = wcast m c (ix2 o (col k hk q)) := by
  show iblk m c 1 t (ix2 o q) = _
  unfold iblk
  rw [View.read_apply]
  show V m c main_v0 _ = _
  rw [weight_at_entry]
  congr 1
  funext a
  apply Fin.ext
  obtain ⟨h0, h1⟩ := wIndex t
  match a with
  | ⟨0, _⟩ => show win0_1.index t 0 * 4096 + 1 * o.val = o.val; rw [h0]; omega
  | ⟨1, _⟩ => show win0_1.index t 1 * 256 + 1 * q.val = 256 * k + q.val; rw [h1]; omega

end Cert.RowSumMatmul.Kernel

end
-- ==== Proof.Recurrence.lean ====
/-
  The accumulator and the output block after each grid point, as a recurrence along the contraction axis.

  Points are numbered row block by row block, sixteen contraction tiles each. At a first tile (`t ≡ 0 mod 16`) the
  accumulator is the step over the zero fill; at every later tile it is the step over what the point before left; and
  at a last tile (`t ≡ 15 mod 16`) the output block is the row sums of the accumulator as that point leaves it.
  All three hold at every float instance.
-/
import proofs.«108593_j43800076485439_1_alg».proof.Proof.Pieces
import proofs.«108593_j43800076485439_1_alg».proof.Proof.Blocks

noncomputable section

namespace Cert.RowSumMatmul.Kernel

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The accumulator, and the output's staging block, after the point at position `n`. -/
abbrev accAt (c : Dev nD) (n : ℕ) (h : n < cfg0.N) : Vec F S1024x4096 .f32 := (outsAt0 m c n h).2
abbrev outAt (c : Dev nD) (n : ℕ) (h : n < cfg0.N) : Vec F S1024 .f32 := (outsAt0 m c n h).1

/-- The position only matters as a number. -/
theorem accAt_congr (c : Dev nD) (n n' : ℕ) (e : n = n') (h : n < cfg0.N) (h' : n' < cfg0.N) :
    accAt m c n h = accAt m c n' h' := by subst e; rfl

/-- First tile of a row block: the step over the zero fill. -/
theorem accAt_first (c : Dev nD) (t : Fin cfg0.N) (h0 : t.val % 16 = 0) :
    accAt m c t.val t.isLt = k0_pay2 (xblk m c t) (wblk m c t) (k0_pay1 (F := F)) := by
  have h1 : ¬t.val % 16 = 15 := by omega
  show (outsAt0 m c t.val t.isLt).2 = _
  rw [outsAt0_A m c t h0 h1]
  dsimp only
  exact acc_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- Any later tile: the step over what the point before left. -/
theorem accAt_later (c : Dev nD) (t : Fin cfg0.N) (h0 : ¬t.val % 16 = 0) :
    accAt m c t.val t.isLt
      = k0_pay2 (xblk m c t) (wblk m c t) (accAt m c (t.val - 1) (Nat.lt_of_le_of_lt (Nat.sub_le _ _) t.isLt)) := by
  show (outsAt0 m c t.val t.isLt).2 = _
  by_cases h1 : t.val % 16 = 15
  · rw [outsAt0_C m c t h0 h1]
    dsimp only
    exact acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact acc_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- Last tile of a row block: the output block is the row sums of the accumulator this point leaves. -/
theorem outAt_last (c : Dev nD) (t : Fin cfg0.N) (h1 : t.val % 16 = 15) :
    outAt m c t.val t.isLt = k0_pay3 (accAt m c t.val t.isLt) := by
  have h0 : ¬t.val % 16 = 0 := by omega
  show (outsAt0 m c t.val t.isLt).1 = k0_pay3 (outsAt0 m c t.val t.isLt).2
  rw [outsAt0_C m c t h0 h1]
  dsimp only
  rw [acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2]
  exact out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

end Cert.RowSumMatmul.Kernel

end
-- ==== Proof.Payload.lean ====
/-
  The three values the kernel body stores, read at an index over the extended reals.

  * the reset: the accumulator is filled with zero;
  * the step: the accumulator at (row r, output o) grows by the dot product, over the 256 columns of the current
    tile, of row r of the x block with row o of the weight block (the narrowing of x to bf16 is the identity here,
    and the matrix product into a zero accumulator is the plain sum of products);
  * the row sum: the output at row r is the sum of the accumulator's row r over the 4096 outputs (the two reshapes
    through a trailing unit axis cancel).
-/
import proofs.«108593_j43800076485439_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.RowSumMatmul.Kernel

open Cert.KernelIdeal Cert.KernelIdeal.Gen Idealize.ShloMosaic
open Idealize.ShloMosaic.ValueIdx (ix1 ix2)

/-! ## The block product's operand indices -/

theorem lhs_axis0 (i : S1024x4096.Idx) (q : dot_S1024x256_S4096x256_S1024x4096_1_1_0_0_n_n.contr.Idx) :
    (dot_S1024x256_S4096x256_S1024x4096_1_1_0_0_n_n.lhsIdx i q 0).val = (i 0).val := by
  unfold DotDims.lhsIdx
  rw [dif_neg (show ¬(0 : Fin S1024x256.rank) ∈ dot_S1024x256_S4096x256_S1024x4096_1_1_0_0_n_n.lhsBatch by decide), dif_pos (show (0 : Fin S1024x256.rank) ∈ dot_S1024x256_S4096x256_S1024x4096_1_1_0_0_n_n.lhsNonContracting by decide)]
  rfl
theorem lhs_axis1 (i : S1024x4096.Idx) (q : dot_S1024x256_S4096x256_S1024x4096_1_1_0_0_n_n.contr.Idx) :
    (dot_S1024x256_S4096x256_S1024x4096_1_1_0_0_n_n.lhsIdx i q 1).val = (q ⟨0, by decide⟩).val :=
  dot_S1024x256_S4096x256_S1024x4096_1_1_0_0_n_n.lhsIdx_val_of_single rfl i q
theorem rhs_axis0 (i : S1024x4096.Idx) (q : dot_S1024x256_S4096x256_S1024x4096_1_1_0_0_n_n.contr.Idx) :
    (dot_S1024x256_S4096x256_S1024x4096_1_1_0_0_n_n.rhsIdx i q 0).val = (i 1).val := by
  unfold DotDims.rhsIdx
  rw [dif_neg (show ¬(0 : Fin S4096x256.rank) ∈ dot_S1024x256_S4096x256_S1024x4096_1_1_0_0_n_n.rhsBatch by decide), dif_pos (show (0 : Fin S4096x256.rank) ∈ dot_S1024x256_S4096x256_S1024x4096_1_1_0_0_n_n.rhsNonContracting by decide)]
  rfl
theorem rhs_axis1 (i : S1024x4096.Idx) (q : dot_S1024x256_S4096x256_S1024x4096_1_1_0_0_n_n.contr.Idx) :
    (dot_S1024x256_S4096x256_S1024x4096_1_1_0_0_n_n.rhsIdx i q 1).val = (q ⟨0, by decide⟩).val :=
  dot_S1024x256_S4096x256_S1024x4096_1_1_0_0_n_n.rhsIdx_val_of_single rfl i q

/-- The block product into a zero accumulator, at (row r, output o): the sum over the tile's 256 columns of
    `lhs[r, q] · rhs[o, q]` — both operands are contracted along their second axis. -/
theorem blockProduct_apply (lhs : FVec Ideal S1024x256 .bf16) (rhs : FVec Ideal S4096x256 .bf16) (r : Fin 1024) (o : Fin 4096) :
    matmul dot_S1024x256_S4096x256_S1024x4096_1_1_0_0_n_n none lhs rhs (constant S1024x4096 .f32 0x00000000#32) (ix2 r o)
      = ∑ q : Fin 256, lhs (ix2 r q) * rhs (ix2 o q) := by
  simp only [matmul]
  rw [Ideal.matmul_constant_zero_apply, ← Equiv.sum_comp (ValueIdx.contrEquiv1 dot_S1024x256_S4096x256_S1024x4096_1_1_0_0_n_n 256 rfl rfl).symm]
  refine Finset.sum_congr rfl fun q _ => ?_
  have hq := ValueIdx.contrEquiv1_symm_val dot_S1024x256_S4096x256_S1024x4096_1_1_0_0_n_n 256 rfl rfl q
  have el : dot_S1024x256_S4096x256_S1024x4096_1_1_0_0_n_n.lhsIdx (ix2 r o) ((ValueIdx.contrEquiv1 dot_S1024x256_S4096x256_S1024x4096_1_1_0_0_n_n 256 rfl rfl).symm q) = ix2 r q := funext fun a => Fin.ext (by
    match a with
    | ⟨0, _⟩ => exact lhs_axis0 _ _
    | ⟨1, _⟩ => exact (lhs_axis1 _ _).trans hq)
  have er : dot_S1024x256_S4096x256_S1024x4096_1_1_0_0_n_n.rhsIdx (ix2 r o) ((ValueIdx.contrEquiv1 dot_S1024x256_S4096x256_S1024x4096_1_1_0_0_n_n 256 rfl rfl).symm q) = ix2 o q := funext fun a => Fin.ext (by
    match a with
    | ⟨0, _⟩ => exact rhs_axis0 _ _
    | ⟨1, _⟩ => exact (rhs_axis1 _ _).trans hq)
  rw [el, er]

/-! ## The three stored values -/

/-- The reset fills the accumulator with zero. -/
theorem reset_apply (j : S1024x4096.Idx) : (k0_pay1 (F := Ideal)) j = 0 := by
  unfold k0_pay1
  rw [shapeCast_self]
  exact Ideal.ofBits_zero_f32

/-- The step: the old accumulator plus the tile's dot product. -/
theorem step_apply (xb : Vec Ideal S1024x256 .f32) (wb : Vec Ideal S4096x256 .bf16) (acc : Vec Ideal S1024x4096 .f32)
    (r : Fin 1024) (o : Fin 4096) :
    k0_pay2 (F := Ideal) xb wb acc (ix2 r o) = acc (ix2 r o) + ∑ q : Fin 256, xb (ix2 r q) * wb (ix2 o q) := by
  unfold k0_pay2
  rw [shapeCast_self, shapeCast_self]
  refine (ValueIdx.addf_apply _ _ _).trans ?_
  exact congrArg (acc (ix2 r o) + ·) (blockProduct_apply _ _ r o)

/-- The row sum: the accumulator's row, summed over the 4096 outputs. -/
theorem rowsum_apply (acc : Vec Ideal S1024x4096 .f32) (r : Fin 1024) :
    k0_pay3 (F := Ideal) acc (ix1 r) = ∑ o : Fin 4096, acc (ix2 r o) := by
  unfold k0_pay3
  rw [shapeCast_shapeCast]
  refine (Ideal.multiReduction_add_single acc 0x00000000#32 reduces_S1024x4096_S1024 (.inl rfl) rfl (ix1 r)).trans ?_
  refine Finset.sum_congr rfl fun o _ => congrArg acc ?_
  funext a
  match a with
  | ⟨0, _⟩ => rfl
  | ⟨1, _⟩ => rfl

end Cert.RowSumMatmul.Kernel

end
-- ==== Proof.Spec.lean ====
/-
  What both programs compute, as one function of the argument arrays over the extended reals.

  For a batch row `b`: the sum over the 4096 outputs `o` of (the dot product of row `b` of `x` with row `o` of
  the weight, plus `bias o`). The kernel reaches it as the row sums of dot products accumulated tile by tile, plus the
  total of the bias; the reference as the row sums of (dot product plus bias).
-/
import proofs.«108593_j43800076485439_1_alg».proof.Proof.TileSums
import Idealize.ShloMosaic.Lib.ValueIdx

noncomputable section

namespace Cert.RowSumMatmul

open Idealize.ShloMosaic
open Idealize.ShloMosaic.ValueIdx (ix1 ix2)

/-- The batch row an index of the result names. -/
def rowOf (j : (⟨1, ![16384]⟩ : Shape).Idx) : Fin 16384 := ⟨(j 0).val, (j 0).isLt⟩

theorem rowOf_ix1 (b : Fin 16384) : rowOf (ix1 b) = b := rfl

/-- One product of the contraction: `x[b, k] · w[o, k]`. -/
def prodAt (X : FVec Ideal ⟨2, ![16384, 4096]⟩ .f32) (W : FVec Ideal ⟨2, ![4096, 4096]⟩ .f32)
    (b : Fin 16384) (o : Fin 4096) (k : Fin 4096) : EReal :=
  X (ix2 b k) * W (ix2 o k)

/-- The common value: at row `b`, the sum over outputs of (dot product plus bias). -/
def out (X : FVec Ideal ⟨2, ![16384, 4096]⟩ .f32) (W : FVec Ideal ⟨2, ![4096, 4096]⟩ .f32)
    (B : FVec Ideal ⟨1, ![4096]⟩ .f32) : FVec Ideal ⟨1, ![16384]⟩ .f32 :=
  fun j => ∑ o : Fin 4096, ((∑ k : Fin 4096, prodAt X W (rowOf j) o k) + B (ix1 o))

/-- What the accumulator holds for (row `b`, output `o`) after `n` tiles of the contraction axis. -/
def accAfter (X : FVec Ideal ⟨2, ![16384, 4096]⟩ .f32) (W : FVec Ideal ⟨2, ![4096, 4096]⟩ .f32)
    (b : Fin 16384) (o : Fin 4096) (n : ℕ) : EReal :=
  upto (prodAt X W b o) n

/-- What the kernel's region writes: at row `b`, the sum over outputs of the fully accumulated dot products. -/
def rowSums (X : FVec Ideal ⟨2, ![16384, 4096]⟩ .f32) (W : FVec Ideal ⟨2, ![4096, 4096]⟩ .f32) :
    FVec Ideal ⟨1, ![16384]⟩ .f32 :=
  fun j => ∑ o : Fin 4096, accAfter X W (rowOf j) o 16

/-- Row sums of the accumulated products, plus (zero plus) the bias total, is the common value. -/
theorem rowSums_add_bias (X : FVec Ideal ⟨2, ![16384, 4096]⟩ .f32) (W : FVec Ideal ⟨2, ![4096, 4096]⟩ .f32)
    (B : FVec Ideal ⟨1, ![4096]⟩ .f32) (j : (⟨1, ![16384]⟩ : Shape).Idx) :
    rowSums X W j + (0 + ∑ o : Fin 4096, B (ix1 o)) = out X W B j :=
  rowsum_bridge (fun o k => prodAt X W (rowOf j) o k) (fun o => B (ix1 o))

end Cert.RowSumMatmul

end
-- ==== Proof.Accum.lean ====
/-
  What the accumulator holds after each grid point, over the extended reals.

  After the point at row block `i`, contraction tile `k`, the accumulator's entry (r, o) is the sum over the first
  `k + 1` tiles of the products `x[1024·i + r, ·] · w[o, ·]`: the first tile starts from zero, each later tile adds its
  256 products to what the tile before left. After the sixteenth tile every dot product is complete, and the output
  block receives, row by row, their sum over the 4096 outputs.
-/
import proofs.«108593_j43800076485439_1_alg».proof.Proof.Recurrence
import proofs.«108593_j43800076485439_1_alg».proof.Proof.Payload
import proofs.«108593_j43800076485439_1_alg».proof.Proof.Spec

noncomputable section

namespace Cert.RowSumMatmul.Kernel

open Cert.KernelIdeal Cert.KernelIdeal.Gen
open Idealize.ShloMosaic Idealize.ShloMosaic.TcCoe Idealize.SL.Sem
open Idealize.ShloMosaic.ValueIdx (ix1 ix2)
open Cert.RowSumMatmul

variable (m : (ℓ : Loc nD τ sig) → Buf (Elt Ideal) ℓ)

/-- The 256 products the point at (row block `i`, tile `k`) adds to entry (r, o), as products of the argument arrays'
    entries: the narrowing of the weight to bf16 is the identity on the extended reals. -/
theorem tile_share (c : Dev nD) (t : Fin cfg0.N) (i k : ℕ) (hi : i < 16) (hk : k < 16) (ht : t.val = 16 * i + k)
    (r : Fin 1024) (o : Fin 4096) :
    ∑ q : Fin 256, xblk m c t (ix2 r q) * wblk m c t (ix2 o q)
      = ∑ q : Fin 256, prodAt (xarr m c) (warr m c) (row i hi r) o (col k hk q) := by
  refine Finset.sum_congr rfl fun q _ => ?_
  rw [xblk_apply m c t i k hi hk ht r q, wblk_apply m c t i k hi hk ht o q]
  rfl

/-- THE INVARIANT, by induction on the tile for a fixed row block. -/
theorem acc_invariant (c : Dev nD) (i : ℕ) (hi : i < 16) :
    ∀ (k : ℕ) (hk : k < 16) (h : 16 * i + k < cfg0.N) (r : Fin 1024) (o : Fin 4096),
      accAt m c (16 * i + k) h (ix2 r o) = accAfter (xarr m c) (warr m c) (row i hi r) o (k + 1)
  | 0, hk, h, r, o => by
    have e := accAt_first m c ⟨16 * i + 0, h⟩ (by show (16 * i + 0) % 16 = 0; omega)
    refine (congrFun e (ix2 r o)).trans ?_
    rw [step_apply, reset_apply, zero_add, tile_share m c ⟨16 * i + 0, h⟩ i 0 hi hk rfl r o]
    exact (upto_one (prodAt (xarr m c) (warr m c) (row i hi r) o)).symm
  | k + 1, hk, h, r, o => by
    have e := accAt_later m c ⟨16 * i + (k + 1), h⟩ (by show ¬(16 * i + (k + 1)) % 16 = 0; omega)
    refine (congrFun e (ix2 r o)).trans ?_
    rw [step_apply, tile_share m c ⟨16 * i + (k + 1), h⟩ i (k + 1) hi hk rfl r o]
    have hprev : accAt m c ((⟨16 * i + (k + 1), h⟩ : Fin cfg0.N).val - 1) (Nat.lt_of_le_of_lt (Nat.sub_le _ _) h)
        = accAt m c (16 * i + k) (Nat.lt_of_succ_lt h) :=
      accAt_congr m c _ _ (by show 16 * i + (k + 1) - 1 = 16 * i + k; omega) _ _
    rw [hprev, acc_invariant c i hi k (by omega) (Nat.lt_of_succ_lt h) r o]
    exact (upto_succ (prodAt (xarr m c) (warr m c) (row i hi r) o) (k + 1) hk).symm

/-- After a row block's last tile the output block holds, at row r, the sum over the outputs of the completed dot
    products of batch row `1024·i + r`. -/
theorem out_block (c : Dev nD) (i : ℕ) (hi : i < 16) (h : 16 * i + 15 < cfg0.N) (r : Fin 1024) :
    outAt m c (16 * i + 15) h (ix1 r) = rowSums (xarr m c) (warr m c) (ix1 (row i hi r)) := by
  have e := outAt_last m c ⟨16 * i + 15, h⟩ (by show (16 * i + 15) % 16 = 15; omega)
  refine (congrFun e (ix1 r)).trans ?_
  rw [rowsum_apply]
  unfold rowSums
  refine Finset.sum_congr rfl fun o _ => ?_
  exact acc_invariant m c i hi 15 (by decide) h r o

end Cert.RowSumMatmul.Kernel

end
-- ==== Proof.KernelValue.lean ====
/-
  The kernel program's result, over the extended reals.

  The region writes its output block once per row block, after the last contraction tile; block `i` of the result
  array is rows `1024·i … 1024·i + 1023`, so the sixteen written blocks cover the array and it ends holding, at every
  batch row, the sum over the outputs of the completed dot products. The host then adds, to every row, the total of
  the bias (a sum started from zero, broadcast along the rows). Row sums plus the bias total is the common value.
-/
import proofs.«108593_j43800076485439_1_alg».proof.Proof.Accum
import Idealize.ShloMosaic.Lib.StableHlo.Run
import Idealize.ShloMosaic.PureOps.Ideal.Laws

noncomputable section

namespace Cert.RowSumMatmul.Kernel

open Cert.KernelIdeal Cert.KernelIdeal.Gen
open Idealize.ShloMosaic Idealize.ShloMosaic.TcCoe Idealize.SL.Sem
open Idealize.ShloMosaic.Pipeline (Dat)
open Idealize.ShloMosaic.ValueIdx (ix0 ix1 ix2)
open Cert.RowSumMatmul

variable (m : (ℓ : Loc nD τ sig) → Buf (Elt Ideal) ℓ) (ρ : Dev nD → PrngReg)

/-- The bias argument, and the array the region writes, at their literal types. -/
abbrev barr (c : Dev nD) : Vec Ideal S4096 .f32 := m ((c : Thread nD τ).loc main_arg2)
abbrev regionOut (c : Dev nD) : Buf (Elt Ideal) ((c : Thread nD τ).loc main_v1) := rowSums (xarr m c) (warr m c)

theorem outAt_congr (c : Dev nD) (n n' : ℕ) (e : n = n') (h : n < cfg0.N) (h' : n' < cfg0.N) :
    outAt m c n h = outAt m c n' h' := by subst e; rfl

/-- WHAT A WRITING POINT WRITES BACK is its block of the row sums: the point is a row block's last tile, `t = 16·i + 15`,
    and its output block sits at rows `1024·i …` of the result array. -/
theorem flushed_eq (c : Dev nD) (t : Fin cfg0.N) (hf : (cfg0.win 2).flush t = true) :
    (dats m 0 c).flushed 2 t = ((cfg0.win 2).blk t).view.read (Elt Ideal) (regionOut m c) := by
  have hN : cfg0.N = 256 := N_0
  have hlt : t.val < 256 := lt_of_lt_of_eq t.isLt hN
  have h15 : t.val % 16 = 15 := (flush0_2 t).mp hf
  obtain ⟨i, hi, ht⟩ : ∃ i, i < 16 ∧ t.val = 16 * i + 15 := ⟨t.val / 16, by omega, by omega⟩
  have h' : 16 * i + 15 < cfg0.N := by rw [hN]; omega
  show (cfg0.win 2).cut (grid0.coords t) ((dats m 0 c).after 2 t) = _
  rw [after0_2]
  funext y
  have hy : (y 0).val < 1024 := (y 0).isLt
  show outAt m c t.val t.isLt y = regionOut m c (((cfg0.win 2).blk t).view.emb y)
  have e1 : outAt m c t.val t.isLt y = outAt m c (16 * i + 15) h' (ix1 ⟨(y 0).val, hy⟩) := by
    rw [outAt_congr m c _ _ ht t.isLt h']
    exact congrArg (outAt m c (16 * i + 15) h') (funext fun a => match a with | ⟨0, _⟩ => rfl)
  rw [e1, out_block m c i hi h' ⟨(y 0).val, hy⟩]
  show rowSums (xarr m c) (warr m c) _ = rowSums (xarr m c) (warr m c) _
  congr 1
  funext a
  apply Fin.ext
  match a with
  | ⟨0, _⟩ =>
    show 1024 * i + (y 0).val = win0_2.index t 0 * 1024 + 1 * (y 0).val
    rw [oIndex t]; omega

/-- Every row of the result array is in the block of SOME writing point: row `b` in that of point `16·(b / 1024) + 15`. -/
theorem covered (c : Dev nD) (j : S16384.Idx) :
    ∃ t : Fin cfg0.N, (cfg0.win 2).flush t = true ∧ j ∈ ((cfg0.win 2).blk t).view.set := by
  have hj : (j 0).val < 16384 := (j 0).isLt
  have hN : cfg0.N = 256 := N_0
  have htv : 16 * ((j 0).val / 1024) + 15 < cfg0.N := by rw [hN]; omega
  refine ⟨⟨16 * ((j 0).val / 1024) + 15, htv⟩, (flush0_2 _).mpr (by show (16 * ((j 0).val / 1024) + 15) % 16 = 15; omega), ?_⟩
  show j ∈ ((View.whole main_v1).slice (win0_2.rect ⟨16 * ((j 0).val / 1024) + 15, htv⟩)).set
  rw [View.set_slice_whole, Rect.mem_set_unit]
  intro a
  match a with
  | ⟨0, _⟩ =>
    show win0_2.index ⟨16 * ((j 0).val / 1024) + 15, htv⟩ 0 * 1024 ≤ (j 0).val
      ∧ (j 0).val < win0_2.index ⟨16 * ((j 0).val / 1024) + 15, htv⟩ 0 * 1024 + 1024
    rw [oIndex ⟨16 * ((j 0).val / 1024) + 15, htv⟩]
    show (16 * ((j 0).val / 1024) + 15) / 16 * 1024 ≤ (j 0).val ∧ (j 0).val < (16 * ((j 0).val / 1024) + 15) / 16 * 1024 + 1024
    omega

/-- So the region's result array ends holding the row sums. -/
theorem region_result (c : Dev nD) : (dats m 0 c).arrAt 2 cfg0.N = regionOut m c :=
  (dats m 0 c).arrAt_eq_of_cover 2 (regionOut m c) (flushed_eq m c) (covered c)

/-! ## The host operations after the region -/

/-- The host's tail: add to every row the total of the bias. -/
def addBiasTotal {F : FTy → Type} [FloatOps F] (G : Vec F S16384 .f32) (B : Vec F S4096 .f32) : Vec F S16384 .f32 :=
  addf G (broadcastInDim S16384 ![] bcast_S_S16384 (Host.reduceAdd (F := F) B (constant (F := F) S_ .f32 0x00000000#32) reducesTo_S4096_S_d0 h_S_))

/-- A sum over the indices of a one-axis shape is the sum over the axis's coordinate. -/
theorem sum_idx1 {M : Type*} [AddCommMonoid M] {n : ℕ} (f : (⟨1, ![n]⟩ : Shape).Idx → M) :
    ∑ i : (⟨1, ![n]⟩ : Shape).Idx, f i = ∑ o : Fin n, f (ix1 o) :=
  (Fintype.sum_equiv
    (⟨fun o => ix1 o, fun i => ⟨(i 0).val, (i 0).isLt⟩, fun o => rfl,
      fun i => funext fun d => match d with | ⟨0, _⟩ => rfl⟩ : Fin n ≃ (⟨1, ![n]⟩ : Shape).Idx)
    (fun o => f (ix1 o)) f (fun o => rfl)).symm

/-- At a row: the entry plus (zero plus the sum of the bias). -/
theorem addBiasTotal_apply (G : Vec Ideal S16384 .f32) (B : Vec Ideal S4096 .f32) (j : S16384.Idx) :
    addBiasTotal (F := Ideal) G B j = G j + (0 + ∑ o : Fin 4096, B (ix1 o)) := by
  unfold addBiasTotal
  refine (ValueIdx.addf_apply _ _ j).trans (congrArg (G j + ·) ?_)
  rw [broadcastInDim_apply (![] : Fin S_.rank → Fin S16384.rank) bcast_S_S16384 _ j ix0 (fun a => a.elim0)]
  simp only [Host.reduceAdd, Ideal.hostReduceAdd_def]
  rw [Ideal.hostReduceAdd_total reducesTo_S4096_S_d0 (fun b => b.elim0)]
  exact congrArg₂ (· + ·) Ideal.ofBits_zero_f32 (sum_idx1 B)

/-- The program's result buffer after the run: the tail applied to the region's result and the bias. -/
theorem tail_result (c : Dev nD) :
    Pipeline.afterTail₀ cfgs (dats m) 0 (V0 m) [hostOps1] c main_v4 = addBiasTotal (regionOut m c) (barr m c) := by
  unfold Pipeline.afterTail₀
  show StableHlo.after hostOps1 _ (Proc.devRef .tc main_v4) = _
  after_results
  have e1 : Pipeline.withArrays (cfgs 0).spec c (V0 m c) (fun w => (dats m 0 c).arrAt w (cfgs 0).N) (Proc.devRef .tc main_v1)
      = regionOut m c :=
    (Pipeline.withArrays_arr spec0 launch0.win.arr_inj c _ _ 2).trans (region_result m c)
  have e2 : Pipeline.withArrays (cfgs 0).spec c (V0 m c) (fun w => (dats m 0 c).arrAt w (cfgs 0).N) (Proc.devRef .tc main_arg2)
      = barr m c :=
    (Pipeline.withArrays_of_ne _ c (V0 m c) _ main_arg2 (by exact (by decide : ∀ w, Pipeline.arrRef spec0 w ≠ main_arg2))).trans
      (V_main_arg2 m c)
  rw [e1, e2]
  rfl

/-- Row sums plus the bias total: the common value. -/
theorem kernel_eq_out (c : Dev nD) :
    addBiasTotal (regionOut m c) (barr m c) = out (xarr m c) (warr m c) (barr m c) := by
  funext j
  rw [addBiasTotal_apply]
  exact rowSums_add_bias (xarr m c) (warr m c) (barr m c) j

/-- THE KERNEL PROGRAM'S RUN, read: it terminates with the result buffer at the common value of the argument arrays,
    which end unchanged. -/
theorem kernel_run : θ_run defs (onTc (τ := τ) (main (F := Ideal))) ⟨m, fun _ => 0, ρ⟩ fun r => ∀ c : Dev nD,
      r.2.mem ((c.tc : Thread nD τ).loc main_v4) = out (xarr m c) (warr m c) (barr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        ((tail_result m c).trans (kernel_eq_out m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.RowSumMatmul.Kernel

end
-- ==== Proof.RefValue.lean ====
/-
  The reference at the extended reals, read index by index: for each batch row, the sum over the outputs of
  (the row's dot product with the output's weight row, plus that output's bias), started from zero. The weight's
  transpose and the two broadcasts of the bias only re-index their operands, so the reference's result is the
  common value.
-/
import proofs.«108593_j43800076485439_1_alg».proof.Proof.Gen.ReferenceIdeal.Read
import proofs.«108593_j43800076485439_1_alg».proof.Proof.Spec
import Idealize.ShloMosaic.Lib.ValueIdx
import Idealize.ShloMosaic.Lib.Pipeline.Value
import Idealize.ShloMosaic.PureOps.Ideal.Laws

noncomputable section

namespace Cert.RowSumMatmul.Ref

open Cert.ReferenceIdeal Cert.ReferenceIdeal.Gen Cert.ReferenceIdeal.Read Idealize.ShloMosaic
open Idealize.ShloMosaic.ValueIdx (ix1 ix2)
open Cert.RowSumMatmul

/-- Output `o` of row `j` contracts `x` at (row, k) … -/
theorem lhs_index (j : S16384.Idx) (o k : Fin 4096) : lidx_main_v1 (idx_main_v5 j o) k = ix2 (rowOf j) k := by
  funext a
  match a with
  | ⟨0, _⟩ => rfl
  | ⟨1, _⟩ => rfl

/-- … against the transposed weight at (k, o), which is the weight at (o, k); -/
theorem rhs_index (j : S16384.Idx) (o k : Fin 4096) : idx_main_v0 (ridx_main_v1 (idx_main_v5 j o) k) = ix2 o k := by
  funext a
  match a with
  | ⟨0, _⟩ => rfl
  | ⟨1, _⟩ => rfl

/-- and the bias broadcast along the rows is read at `o`. -/
theorem bias_index (j : S16384.Idx) (o : Fin 4096) : idx_main_v2 (idx_main_v3 (idx_main_v5 j o)) = ix1 o := by
  funext a
  match a with
  | ⟨0, _⟩ => rfl

/-- The reference's result is the common value. -/
theorem reference_eq_out (X : FVec Ideal S16384x4096 .f32) (W : FVec Ideal S4096x4096 .f32) (B : FVec Ideal S4096 .f32) :
    val_main_v5 (F := Ideal) X W B = out X W B := by
  funext j
  rw [val_main_v5_apply]
  have hz : (val_main_cst (F := Ideal)) (Shape.Idx.first h_S_) = 0 := Ideal.ofBits_zero_f32
  rw [hz, zero_add]
  unfold out
  refine Finset.sum_congr rfl fun o _ => ?_
  rw [val_main_v4_apply, val_main_v1_apply, val_main_v3_apply, val_main_v2_apply, bias_index]
  refine congrArg (· + B (ix1 o)) (Finset.sum_congr rfl fun k _ => ?_)
  rw [val_main_v0_apply, lhs_index, rhs_index]
  rfl

end Cert.RowSumMatmul.Ref

end
-- ==== Proof.lean ====
/-
  The kernel computes, for every batch row, the sum over the 4096 outputs of a linear layer: `x @ Wᵀ` accumulated tile by
  tile along the contraction axis into a (1024 × 4096) accumulator per row block, row-summed after the last tile, and
  the total of the bias added on the host. The reference adds the bias to every entry of `x @ Wᵀ` and then sums each row.

  Over the extended reals the two are one function of the argument arrays: the narrowing of the operands to bf16 is the
  identity, the tiled accumulation of a dot product is the dot product (sixteen tiles of 256 columns are the whole
  axis), and a row sum of (dot product + bias) splits into the row sum of dot products plus the bias total — all by
  commutativity and associativity of addition alone, so the precondition (finite inputs) is not used by the value
  claim. The idealization rewrote no operation, so the kernel is its own idealization read at the ideal instance.
-/
import proofs.«108593_j43800076485439_1_alg».proof.Defs
import proofs.«108593_j43800076485439_1_alg».proof.Proof.Gen.Kernel
import proofs.«108593_j43800076485439_1_alg».proof.Proof.Gen.Kernel.Skeleton
import proofs.«108593_j43800076485439_1_alg».proof.Proof.Gen.Kernel.Launch
import proofs.«108593_j43800076485439_1_alg».proof.Proof.Gen.Kernel.Points
import proofs.«108593_j43800076485439_1_alg».proof.Proof.Gen.Kernel.Frame
import proofs.«108593_j43800076485439_1_alg».proof.Proof.Gen.KernelIdeal
import proofs.«108593_j43800076485439_1_alg».proof.Proof.Gen.KernelIdeal.Skeleton
import proofs.«108593_j43800076485439_1_alg».proof.Proof.Gen.KernelIdeal.Launch
import proofs.«108593_j43800076485439_1_alg».proof.Proof.Gen.KernelIdeal.Points
import proofs.«108593_j43800076485439_1_alg».proof.Proof.Gen.KernelIdeal.Frame
import proofs.«108593_j43800076485439_1_alg».proof.Proof.Gen.ReferenceIdeal
import proofs.«108593_j43800076485439_1_alg».proof.Proof.Gen.ReferenceIdeal.Run
import proofs.«108593_j43800076485439_1_alg».proof.Proof.Gen.ReferenceIdeal.Read
import proofs.«108593_j43800076485439_1_alg».proof.Proof.Gen.Pre_finite_inputs
import proofs.«108593_j43800076485439_1_alg».proof.Proof.KernelValue
import proofs.«108593_j43800076485439_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at the common value of arguments that agree. -/
theorem algebraic : Cert.algebraic_KernelIdeal_ReferenceIdeal := by
  intro m ρ m' ρ' _ hagree
  refine ⟨fun c => Cert.RowSumMatmul.out (Cert.RowSumMatmul.Kernel.xarr m c) (Cert.RowSumMatmul.Kernel.warr m c)
    (Cert.RowSumMatmul.Kernel.barr m c), Cert.RowSumMatmul.Kernel.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.RowSumMatmul.Ref.reference_eq_out _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
